-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S4096x4096 : Shape := ⟨2, ![4096, 4096]⟩
abbrev S4096 : Shape := ⟨1, ![4096]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096 : S_.BroadcastsInDim S4096 (![] : Fin 0 → Fin S4096.rank)
  reducesTo_S4096_S_d0 : S4096.ReducesTo [0] S_

variable [Facts]

def fn_part1 {F : FTy → Type} [FloatOps F] (main_arg4 : FVec F S4096 .f32) (main_arg5 : FVec F S4096x4096 .f32) (main_arg6 : FVec F S4096 .f32) (main_v13 : IVec S_ 1) (main_v16 : IVec S4096 1) : IVec S_ 1 :=
  let main_c_5 : IVec S_ 1 := constantI S_ 1 1#1
  let main_v17 : IVec S_ 1 := (fun x v => Host.reduce IntOp.andi x v reducesTo_S4096_S_d0 h_S_) main_v16 main_c_5
  let main_v18 : IVec S_ 1 := andi main_v13 main_v17
  let main_v19 : FVec F S4096 .f32 := Host.absf main_arg4
  let main_cst_6 : FVec F S_ .f32 := constant S_ .f32 0x7F800000#32
  let main_v20 : FVec F S4096 .f32 := broadcastInDim S4096 ![] bcast_S_S4096 main_cst_6
  let main_v21 : IVec S4096 1 := cmpf .olt main_v19 main_v20
  let main_c_7 : IVec S_ 1 := constantI S_ 1 1#1
  let main_v22 : IVec S_ 1 := (fun x v => Host.reduce IntOp.andi x v reducesTo_S4096_S_d0 h_S_) main_v21 main_c_7
  let main_v23 : IVec S_ 1 := andi main_v18 main_v22
  let main_v24 : FVec F S4096x4096 .f32 := Host.absf main_arg5
  let main_cst_8 : FVec F S_ .f32 := constant S_ .f32 0x7F800000#32
  let main_v25 : FVec F S4096x4096 .f32 := broadcastInDim S4096x4096 ![] bcast_S_S4096x4096 main_cst_8
  let main_v26 : IVec S4096x4096 1 := cmpf .olt main_v24 main_v25
  let main_c_9 : IVec S_ 1 := constantI S_ 1 1#1
  let main_v27 : IVec S_ 1 := (fun x v => Host.reduce IntOp.andi x v reducesTo_S4096x4096_S_d0_1 h_S_) main_v26 main_c_9
  let main_v28 : IVec S_ 1 := andi main_v23 main_v27
  let main_v29 : FVec F S4096 .f32 := Host.absf main_arg6
  let main_cst_10 : FVec F S_ .f32 := constant S_ .f32 0x7F800000#32
  let main_v30 : FVec F S4096 .f32 := broadcastInDim S4096 ![] bcast_S_S4096 main_cst_10
  let main_v31 : IVec S4096 1 := cmpf .olt main_v29 main_v30
  let main_c_11 : IVec S_ 1 := constantI S_ 1 1#1
  let main_v32 : IVec S_ 1 := (fun x v => Host.reduce IntOp.andi x v reducesTo_S4096_S_d0 h_S_) main_v31 main_c_11
  let main_v33 : IVec S_ 1 := andi main_v28 main_v32
  main_v33

def fn {F : FTy → Type} [FloatOps F] (main_arg0 : FVec F S8192x4096 .f32) (main_arg1 : FVec F S4096x4096 .f32) (main_arg2 : FVec F S4096x4096 .f32) (main_arg3 : FVec F S4096 .f32) (main_arg4 : FVec F S4096 .f32) (main_arg5 : FVec F S4096x4096 .f32) (main_arg6 : FVec F S4096 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096x4096 .f32 := Host.absf main_arg2
  let main_cst_2 : FVec F S_ .f32 := constant S_ .f32 0x7F800000#32
  let main_v10 : FVec F S4096x4096 .f32 := broadcastInDim S4096x4096 ![] bcast_S_S4096x4096 main_cst_2
  let main_v11 : IVec S4096x4096 1 := cmpf .olt main_v9 main_v10
  let main_c_3 : IVec S_ 1 := constantI S_ 1 1#1
  let main_v12 : IVec S_ 1 := (fun x v => Host.reduce IntOp.andi x v reducesTo_S4096x4096_S_d0_1 h_S_) main_v11 main_c_3
  let main_v13 : IVec S_ 1 := andi main_v8 main_v12
  let main_v14 : FVec F S4096 .f32 := Host.absf main_arg3
  let main_cst_4 : FVec F S_ .f32 := constant S_ .f32 0x7F800000#32
  let main_v15 : FVec F S4096 .f32 := broadcastInDim S4096 ![] bcast_S_S4096 main_cst_4
  let main_v16 : IVec S4096 1 := cmpf .olt main_v14 main_v15
  fn_part1 (F := F) main_arg4 main_arg5 main_arg6 main_v13 main_v16
-- ==== Kernel.lean ====
abbrev S8192x4096 : Shape := ⟨2, ![8192, 4096]⟩
abbrev S4096x4096 : Shape := ⟨2, ![4096, 4096]⟩
abbrev S4096 : Shape := ⟨1, ![4096]⟩
abbrev S1x4096 : Shape := ⟨2, ![1, 4096]⟩
abbrev S1024x512 : Shape := ⟨2, ![1024, 512]⟩
abbrev S1x1024 : Shape := ⟨2, ![1, 1024]⟩
abbrev S1024x1024 : Shape := ⟨2, ![1024, 1024]⟩

abbrev nBuf : Space → Nat
  | .hbm => 11
  | .vmem => 17
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S4096x4096, .f32⟩
  | .hbm, ⟨3, _⟩ => ⟨S4096, .f32⟩
  | .hbm, ⟨4, _⟩ => ⟨S4096, .f32⟩
  | .hbm, ⟨5, _⟩ => ⟨S4096x4096, .f32⟩
  | .hbm, ⟨6, _⟩ => ⟨S4096, .f32⟩
  | .hbm, ⟨7, _⟩ => ⟨S1x4096, .f32⟩
  | .hbm, ⟨8, _⟩ => ⟨S1x4096, .f32⟩
  | .hbm, ⟨9, _⟩ => ⟨S1x4096, .f32⟩
  | .hbm, ⟨10, _⟩ => ⟨S8192x4096, .f32⟩
  | .local _ .vmem, ⟨0, _⟩ => ⟨S1024x512, .f32⟩
  | .local _ .vmem, ⟨1, _⟩ => ⟨S1024x512, .f32⟩
  | .local _ .vmem, ⟨2, _⟩ => ⟨S1024x512, .f32⟩
  | .local _ .vmem, ⟨3, _⟩ => ⟨S1024x512, .f32⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | .local _ .vmem, ⟨8, _⟩ => ⟨S1x1024, .f32⟩
  | .local _ .vmem, ⟨9, _⟩ => ⟨S1x1024, .f32⟩
  | .local _ .vmem, ⟨10, _⟩ => ⟨S1x1024, .f32⟩
  | .local _ .vmem, ⟨11, _⟩ => ⟨S1x1024, .f32⟩
  | .local _ .vmem, ⟨12, _⟩ => ⟨S1x1024, .f32⟩
  | .local _ .vmem, ⟨13, _⟩ => ⟨S1x1024, .f32⟩
  | .local _ .vmem, ⟨14, _⟩ => ⟨S1024x1024, .f32⟩
  | .local _ .vmem, ⟨15, _⟩ => ⟨S1024x1024, .f32⟩
  | .local _ .vmem, ⟨16, _⟩ => ⟨S1024x1024, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨3, ![8, 4, 8], ![false, false, false]⟩

def k0_cond2 (i : grid0.Coords) : BitVec 1 :=
  let arg2 : BitVec 32 := BitVec.ofNat 32 (i 2).val
  let c7_i32 : BitVec 32 := 7#32
  let v20 : BitVec 1 := Scalar.cmpi .eq arg2 c7_i32
  let v21 : BitVec 32 := Scalar.extui v20
  let c0_i32_13 : BitVec 32 := 0#32
  let v22 : BitVec 1 := Scalar.cmpi .ne v21 c0_i32_13
  v22

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, true]

abbrev stage0_4 : Fin 2 → Memref sig .tc .vmem S1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, false]

abbrev stage0_5 : Fin 2 → Memref sig .tc .vmem S1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true, false]

abbrev stage0_6 : Fin 2 → Memref sig .tc .vmem S1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true, false]

abbrev stage0_7 : Fin 2 → Memref sig .tc .vmem S1024x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]

class Facts₀ : Prop where
  shapeCasts_S4096_S1x4096 : S4096.ShapeCasts S1x4096
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024x512_S1024x512_0_0 : ∀ a, (![0, 0] : Fin 2 → Nat) a + S1024x512.size a ≤ S1024x512.size a
  h_S1024x512 : 0 < S1024x512.numel
  bitsLt_bf16_f32 : FTy.bits .bf16 < FTy.bits .f32
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  dot_S1024x512_S1024x512_S1024x1024_1_1_0_0_n_n_wf : DotDims.WF S1024x512 S1024x512 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S8192x4096.size a
  hwx0_0 : ∀ i : grid0.Coords, EltTy.bits .f32 = 32 ∨ (Rect.block (s := S8192x4096) S1024x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x512.size a ≤ S4096x4096.size a
  hwx0_1 : ∀ i : grid0.Coords, EltTy.bits .f32 = 32 ∨ (Rect.block (s := S4096x4096) S1024x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x512.size a ≤ S4096x4096.size a
  hwx0_2 : ∀ i : grid0.Coords, EltTy.bits .f32 = 32 ∨ (Rect.block (s := S4096x4096) S1024x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x512.size a ≤ S4096x4096.size a
  hwx0_3 : ∀ i : grid0.Coords, EltTy.bits .f32 = 32 ∨ (Rect.block (s := S4096x4096) S1024x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1024.size a ≤ S1x4096.size a
  hwx0_4 : ∀ i : grid0.Coords, EltTy.bits .f32 = 32 ∨ (Rect.block (s := S1x4096) S1x1024.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1024.size a ≤ S1x4096.size a
  hwx0_5 : ∀ i : grid0.Coords, EltTy.bits .f32 = 32 ∨ (Rect.block (s := S1x4096) S1x1024.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x1024.size a ≤ S1x4096.size a
  hwx0_6 : ∀ i : grid0.Coords, EltTy.bits .f32 = 32 ∨ (Rect.block (s := S1x4096) S1x1024.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1024x1024.size a ≤ S8192x4096.size a
  hwx0_7 : ∀ i : grid0.Coords, EltTy.bits .f32 = 32 ∨ (Rect.block (s := S8192x4096) S1024x1024.size (cc0_transform_7 i) (hinb0_7 i)).WholeWords (EltTy.packing .f32)

variable [Facts₀]

def dot_S1024x512_S1024x512_S1024x1024_1_1_0_0_n_n : DotDims S1024x512 S1024x512 S1024x1024 where
  lhsContracting := [1]
  rhsContracting := [1]
  lhsNonContracting := [0]
  rhsNonContracting := [0]
  lhsBatch := []
  rhsBatch := []
  wf := dot_S1024x512_S1024x512_S1024x1024_1_1_0_0_n_n_wf

abbrev win0_0 : Pipeline.Window sig grid0 :=
  Pipeline.Window.ofSpec (Memref.whole main_arg0) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1024x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S1024x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0) S1x1024.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v1) S1x1024.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v2) S1x1024.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v3) S1024x1024.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev idle0 : Fin 8 → grid0.Coords → Bool := fun | 0 => fun _ => false | 1 => fun _ => false | 2 => fun _ => false | 3 => fun _ => false | 4 => fun _ => false | 5 => fun _ => false | 6 => fun _ => false | 7 => fun i => !(k0_cond2 i == 1#1) | ⟨_ + 8, h⟩ => absurd h (Nat.not_lt.2 (Nat.le_add_left _ _))

class Facts : Prop extends Facts₀ where

variable [Facts]
-- ==== ReferenceIdeal.lean ====
abbrev S8192x4096 : Shape := ⟨2, ![8192, 4096]⟩
abbrev S4096x4096 : Shape := ⟨2, ![4096, 4096]⟩
abbrev S4096 : Shape := ⟨1, ![4096]⟩
abbrev S_ : Shape := ⟨0, ![]⟩
abbrev S1x4096 : Shape := ⟨2, ![1, 4096]⟩

abbrev nBuf : Space → Nat
  | .hbm => 23
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S4096x4096, .f32⟩
  | .hbm, ⟨3, _⟩ => ⟨S4096, .f32⟩
  | .hbm, ⟨4, _⟩ => ⟨S4096, .f32⟩
  | .hbm, ⟨5, _⟩ => ⟨S4096x4096, .f32⟩
  | .hbm, ⟨6, _⟩ => ⟨S4096, .f32⟩
  | .hbm, ⟨7, _⟩ => ⟨S_, .f32⟩
  | .hbm, ⟨8, _⟩ => ⟨S4096x4096, .f32⟩
  | .hbm, ⟨9, _⟩ => ⟨S4096x4096, .f32⟩
  | .hbm, ⟨10, _⟩ => ⟨S4096x4096, .f32⟩
  | .hbm, ⟨11, _⟩ => ⟨S4096x4096, .f32⟩
  | .hbm, ⟨12, _⟩ => ⟨S4096x4096, .f32⟩
  | .hbm, ⟨13, _⟩ => ⟨S_, .f32⟩
  | .hbm, ⟨14, _⟩ => ⟨S4096, .f32⟩
  | .hbm, ⟨15, _⟩ => ⟨S4096, .f32⟩
  | .hbm, ⟨16, _⟩ => ⟨S4096, .f32⟩
  | .hbm, ⟨17, _⟩ => ⟨S4096, .f32⟩
  | .hbm, ⟨18, _⟩ => ⟨S4096, .f32⟩
  | .hbm, ⟨19, _⟩ => ⟨S8192x4096, .f32⟩
  | .hbm, ⟨20, _⟩ => ⟨S1x4096, .f32⟩
  | .hbm, ⟨21, _⟩ => ⟨S8192x4096, .f32⟩
  | .hbm, ⟨22, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩

abbrev nD : Nat := 1
abbrev τ : Topo := Topo.v7x

variable {F : FTy → Type} [FloatOps F]

class Facts₀ : Prop where
  bcast_S_S4096x4096 : S_.BroadcastsInDim S4096x4096 (![] : Fin 0 → Fin S4096x4096.rank)
  bcast_S_S4096 : S_.BroadcastsInDim S4096 (![] : Fin 0 → Fin S4096.rank)
  bcast_S4096_S1x4096_1 : S4096.BroadcastsInDim S1x4096 (![1] : Fin 1 → Fin S1x4096.rank)
  bcast_S1x4096_S8192x4096_0_1 : S1x4096.BroadcastsInDim S8192x4096 (![0, 1] : Fin 2 → Fin S8192x4096.rank)
  dot_S8192x4096_S4096x4096_S8192x4096_1_1_0_0_n_n_wf : DotDims.WF S8192x4096 S4096x4096 S8192x4096 [1] [1] [0] [0] [] []

variable [Facts₀]

def dot_S8192x4096_S4096x4096_S8192x4096_1_1_0_0_n_n : DotDims S8192x4096 S4096x4096 S8192x4096 where
  lhsContracting := [1]
  rhsContracting := [1]
  lhsNonContracting := [0]
  rhsNonContracting := [0]
  lhsBatch := []
  rhsBatch := []
  wf := dot_S8192x4096_S4096x4096_S8192x4096_1_1_0_0_n_n_wf

class Facts : Prop extends Facts₀ where

variable [Facts]
-- ==== Proof.Spec.lean ====
/-
  The mathematics of the layer, with no program in sight.

  A Bayesian linear layer draws each weight and each bias by the reparameterization
  `mean + noise · exp(½ · log-variance)` and then applies the affine map: for a batch row `b` and an output
  feature `o`,

      out[b, o] = (∑ i < 4096, x[b, i] · w[o, i]) + bias[o].

  Over the extended reals addition is commutative and associative, so the sum over the 4096 input features
  may be taken as eight partial sums over consecutive stretches of 512 features, added one after the other
  to a zero start. Nothing else is used: no distributivity, no cancelling, hence no finiteness.
-/
import Mathlib.Algebra.BigOperators.Fin
import Mathlib.Algebra.BigOperators.Group.Finset.Basic
import Mathlib.Logic.Equiv.Fin.Basic
import Idealize.ShloMosaic.PureOps.Ideal
import Idealize.ShloMosaic.Lib.ValueIdx

open scoped BigOperators

noncomputable section

namespace Cert.BayesLinear

open Idealize.ShloMosaic Idealize.ShloMosaic.ValueIdx

/-- The factor one half, as the f32 word both programs write. Its value is never needed. -/
abbrev half : EReal := Ideal.ofBits .f32 0x3F000000#32

/-- A reparameterized draw: `mean + noise · exp(½ · log-variance)`. -/
def sample (mu eps lv : EReal) : EReal := mu + eps * Ideal.exp (half * lv)

/-- The layer's output at batch row `j 0` and output feature `j 1`: the row of `x` against the drawn
    weight row, plus the drawn bias. -/
def linear (x : (⟨2, ![8192, 4096]⟩ : Shape).Idx → EReal)
    (wmu wlv weps : (⟨2, ![4096, 4096]⟩ : Shape).Idx → EReal)
    (bmu blv beps : (⟨1, ![4096]⟩ : Shape).Idx → EReal) :
    (⟨2, ![8192, 4096]⟩ : Shape).Idx → EReal :=
  fun j => (∑ i : Fin 4096, x (ix2 (j 0) i)
      * sample (wmu (ix2 (j 1) i)) (weps (ix2 (j 1) i)) (wlv (ix2 (j 1) i)))
    + sample (bmu (ix1 (j 1))) (beps (ix1 (j 1))) (blv (ix1 (j 1)))

/-- A sum over 4096 consecutive features is the sum, over the eight stretches of 512, of the stretch's sum:
    feature `512 p + q` is feature `q` of stretch `p`. -/
theorem sum_stretches {M : Type*} [AddCommMonoid M] (f : Fin 4096 → M) :
    ∑ i : Fin 4096, f i = ∑ p : Fin 8, ∑ q : Fin 512, f ⟨p.val * 512 + q.val, by omega⟩ := by
  rw [← Equiv.sum_comp ((finProdFinEquiv (m := 8) (n := 512)).trans (finCongr (by norm_num))) f,
    Fintype.sum_prod_type]
  refine Finset.sum_congr rfl fun p _ => Finset.sum_congr rfl fun q _ => congrArg f (Fin.ext ?_)
  simp only [Equiv.trans_apply, finProdFinEquiv_apply_val, finCongr_apply, Fin.coe_cast]
  omega

/-- Adding eight terms one after the other to a zero start gives their sum. -/
theorem eight_steps {M : Type*} [AddCommMonoid M] (t : Fin 8 → M) :
    0 + t 0 + t 1 + t 2 + t 3 + t 4 + t 5 + t 6 + t 7 = ∑ p : Fin 8, t p := by
  rw [zero_add, Fin.sum_univ_eight]

end Cert.BayesLinear

end
-- ==== Proof.PointValue.lean ====
/-
  What one grid point leaves behind, in each of the three situations a point can be in, for any float values.

  The grid is walked with the stretch of input features innermost, eight stretches to an output block.
  At the first stretch the running block is set to zero and then the stretch's product is added to it; at
  a middle stretch the product is added to what the stretch before left; at the last stretch the product is
  added likewise and then the output block is stored as that sum plus the drawn bias row. Each stored value
  covers its whole buffer, so what the buffer holds afterwards is the stored value itself, written over the
  point's input blocks.
-/
import proofs.«163167_j20151986553504_1_alg».proof.Proof.Gen.KernelIdeal.Frame
import Idealize.ShloMosaic.Lib.Pipeline.Value
import Idealize.ShloMosaic.Lib.Tactic

noncomputable section

namespace Cert.KernelIdeal.PointValue

open Cert.KernelIdeal Cert.KernelIdeal.Gen
open Idealize.ShloMosaic Idealize.ShloMosaic.TcCoe Idealize.SL.Sem

variable {F : FTy → Type} [FloatOps F]

theorem origin : (![0, 0] : Fin 2 → Nat) = fun _ => 0 := funext fun a => by fin_cases a <;> rfl

/-- First stretch: the running block ends as the step applied to the zero block. -/
theorem running_first (c : Dev nD) (i : grid0.Coords) (a3 : Memref sig .tc .vmem S1024x512 .f32) (h3 : a3.IsWhole) (a4 : Memref sig .tc .vmem S1024x512 .f32) (h4 : a4.IsWhole) (a5 : Memref sig .tc .vmem S1024x512 .f32) (h5 : a5.IsWhole) (a6 : Memref sig .tc .vmem S1024x512 .f32) (h6 : a6.IsWhole) (a7 : Memref sig .tc .vmem S1x1024 .f32) (h7 : a7.IsWhole) (a8 : Memref sig .tc .vmem S1x1024 .f32) (h8 : a8.IsWhole) (a9 : Memref sig .tc .vmem S1x1024 .f32) (h9 : a9.IsWhole) (a10 : Memref sig .tc .vmem S1024x1024 .f32) (h10 : a10.IsWhole) (a11 : Memref sig .tc .vmem S1024x1024 .f32) (h11 : a11.IsWhole) (hc0 : cond0_0 i) (hc1 : ¬cond0_1 i) (x0 x1 x2 x3 : Vec F S1024x512 .f32) (x4 x5 x6 : Vec F S1x1024 .f32) :
    sout0_A_0 c i a3 h3 a4 h4 a5 h5 a6 h6 a7 h7 a8 h8 a9 h9 a10 h10 a11 h11 hc0 hc1 x0 x1 x2 x3 x4 x5 x6 = k0_pay2 x1 x3 x2 x0 k0_pay1 := by
  unfold sout0_A_0
  rw [View.read_writes_eq_canon _ _ _ (scover0_A_0 c i a3 h3 a4 h4 a5 h5 a6 h6 a7 h7 a8 h8 a9 h9 a10 h10 a11 h11 hc0 hc1 x0 x1 x2 x3 x4 x5 x6)]
  unfold kernelRun0_A
  dsimp only
  sl_unfold_words
  rw [View.canon_cons_unit_zero (S := S1024x1024) origin, View.readCov_unit_zero (S := S1024x1024) _ origin]
  simp only [View.readAt_eq_ld, h3.read_unread, h4.read_unread, h5.read_unread, h6.read_unread, h7.read_unread, h8.read_unread, h9.read_unread, h11.read_unread, View.ld_unit_zero (S := S1024x512) origin, View.ld_unit_zero (S := S1x1024) origin, View.ld_unit_zero (S := S1024x1024) origin]

/-- Middle stretch: the running block ends as the step applied to what the stretch before left. -/
theorem running_mid (c : Dev nD) (i : grid0.Coords) (a3 : Memref sig .tc .vmem S1024x512 .f32) (h3 : a3.IsWhole) (a4 : Memref sig .tc .vmem S1024x512 .f32) (h4 : a4.IsWhole) (a5 : Memref sig .tc .vmem S1024x512 .f32) (h5 : a5.IsWhole) (a6 : Memref sig .tc .vmem S1024x512 .f32) (h6 : a6.IsWhole) (a7 : Memref sig .tc .vmem S1x1024 .f32) (h7 : a7.IsWhole) (a8 : Memref sig .tc .vmem S1x1024 .f32) (h8 : a8.IsWhole) (a9 : Memref sig .tc .vmem S1x1024 .f32) (h9 : a9.IsWhole) (a10 : Memref sig .tc .vmem S1024x1024 .f32) (h10 : a10.IsWhole) (a11 : Memref sig .tc .vmem S1024x1024 .f32) (h11 : a11.IsWhole) (hc0 : ¬cond0_0 i) (hc1 : ¬cond0_1 i) (x0 x1 x2 x3 : Vec F S1024x512 .f32) (x4 x5 x6 : Vec F S1x1024 .f32) (xs : Vec F S1024x1024 .f32) :
    sout0_B_0 c i a3 h3 a4 h4 a5 h5 a6 h6 a7 h7 a8 h8 a9 h9 a10 h10 a11 h11 hc0 hc1 x0 x1 x2 x3 x4 x5 x6 xs = k0_pay2 x1 x3 x2 x0 xs := by
  unfold sout0_B_0
  rw [View.read_writes_eq_canon _ _ _ (scover0_B_0 c i a3 h3 a4 h4 a5 h5 a6 h6 a7 h7 a8 h8 a9 h9 a10 h10 a11 h11 hc0 hc1 x0 x1 x2 x3 x4 x5 x6 xs)]
  unfold kernelRun0_B
  dsimp only
  sl_unfold_words
  rw [View.canon_unit_zero origin]
  simp only [View.readAt_eq_ld, h3.read_unread, h4.read_unread, h5.read_unread, h6.read_unread, h7.read_unread, h8.read_unread, h9.read_unread, h11.read_unread, View.ld_unit_zero (S := S1024x512) origin, View.ld_unit_zero (S := S1x1024) origin, View.ld_unit_zero (S := S1024x1024) origin]

/-- Last stretch: the running block ends the same way … -/
theorem running_last (c : Dev nD) (i : grid0.Coords) (a3 : Memref sig .tc .vmem S1024x512 .f32) (h3 : a3.IsWhole) (a4 : Memref sig .tc .vmem S1024x512 .f32) (h4 : a4.IsWhole) (a5 : Memref sig .tc .vmem S1024x512 .f32) (h5 : a5.IsWhole) (a6 : Memref sig .tc .vmem S1024x512 .f32) (h6 : a6.IsWhole) (a7 : Memref sig .tc .vmem S1x1024 .f32) (h7 : a7.IsWhole) (a8 : Memref sig .tc .vmem S1x1024 .f32) (h8 : a8.IsWhole) (a9 : Memref sig .tc .vmem S1x1024 .f32) (h9 : a9.IsWhole) (a10 : Memref sig .tc .vmem S1024x1024 .f32) (h10 : a10.IsWhole) (a11 : Memref sig .tc .vmem S1024x1024 .f32) (h11 : a11.IsWhole) (hc0 : ¬cond0_0 i) (hc1 : cond0_1 i) (x0 x1 x2 x3 : Vec F S1024x512 .f32) (x4 x5 x6 : Vec F S1x1024 .f32) (xs : Vec F S1024x1024 .f32) :
    sout0_C_0 c i a3 h3 a4 h4 a5 h5 a6 h6 a7 h7 a8 h8 a9 h9 a10 h10 a11 h11 hc0 hc1 x0 x1 x2 x3 x4 x5 x6 xs = k0_pay2 x1 x3 x2 x0 xs := by
  unfold sout0_C_0
  rw [View.read_writes_eq_canon _ _ _ (scover0_C_0 c i a3 h3 a4 h4 a5 h5 a6 h6 a7 h7 a8 h8 a9 h9 a10 h10 a11 h11 hc0 hc1 x0 x1 x2 x3 x4 x5 x6 xs)]
  unfold kernelRun0_C
  dsimp only
  sl_unfold_words
  rw [View.canon_unit_zero origin]
  simp only [View.readAt_eq_ld, h3.read_unread, h4.read_unread, h5.read_unread, h6.read_unread, h7.read_unread, h8.read_unread, h9.read_unread, h11.read_unread, View.ld_unit_zero (S := S1024x512) origin, View.ld_unit_zero (S := S1x1024) origin, View.ld_unit_zero (S := S1024x1024) origin]

/-- … and the output block is that final running block with the drawn bias row added. -/
theorem output_last (c : Dev nD) (i : grid0.Coords) (a3 : Memref sig .tc .vmem S1024x512 .f32) (h3 : a3.IsWhole) (a4 : Memref sig .tc .vmem S1024x512 .f32) (h4 : a4.IsWhole) (a5 : Memref sig .tc .vmem S1024x512 .f32) (h5 : a5.IsWhole) (a6 : Memref sig .tc .vmem S1024x512 .f32) (h6 : a6.IsWhole) (a7 : Memref sig .tc .vmem S1x1024 .f32) (h7 : a7.IsWhole) (a8 : Memref sig .tc .vmem S1x1024 .f32) (h8 : a8.IsWhole) (a9 : Memref sig .tc .vmem S1x1024 .f32) (h9 : a9.IsWhole) (a10 : Memref sig .tc .vmem S1024x1024 .f32) (h10 : a10.IsWhole) (a11 : Memref sig .tc .vmem S1024x1024 .f32) (h11 : a11.IsWhole) (hc0 : ¬cond0_0 i) (hc1 : cond0_1 i) (x0 x1 x2 x3 : Vec F S1024x512 .f32) (x4 x5 x6 : Vec F S1x1024 .f32) (xs : Vec F S1024x1024 .f32) :
    out0_C_7 c i a3 h3 a4 h4 a5 h5 a6 h6 a7 h7 a8 h8 a9 h9 a10 h10 a11 h11 hc0 hc1 x0 x1 x2 x3 x4 x5 x6 xs = k0_pay3 x4 x6 x5 (k0_pay2 x1 x3 x2 x0 xs) := by
  unfold out0_C_7
  rw [View.read_writes_eq_canon _ _ _ (cover0_C_7 c i a3 h3 a4 h4 a5 h5 a6 h6 a7 h7 a8 h8 a9 h9 a10 h10 a11 h11 hc0 hc1 x0 x1 x2 x3 x4 x5 x6 xs)]
  unfold kernelRun0_C
  dsimp only
  sl_unfold_words
  rw [View.canon_unit_zero origin]
  simp only [View.readCov_unit_zero (S := S1024x1024) _ origin, View.readAt_eq_ld, h3.read_unread, h4.read_unread, h5.read_unread, h6.read_unread, h7.read_unread, h8.read_unread, h9.read_unread, h11.read_unread, View.ld_unit_zero (S := S1024x512) origin, View.ld_unit_zero (S := S1x1024) origin, View.ld_unit_zero (S := S1024x1024) origin]

end Cert.KernelIdeal.PointValue

end
-- ==== Proof.PointIdeal.lean ====
/-
  One grid point's arithmetic, read entry by entry over the extended reals.

  A grid point holds a 1024 × 512 block of `x` (batch rows × a stretch of input features) and the
  1024 × 512 blocks of the weight means, noises and log-variances (output features × the same stretch).
  It draws the weight block, contracts the stretch, and adds the 1024 × 1024 product to the running block:
  entry `(p, q)` gains `∑ kk < 512, x[p, kk] · w[q, kk]`. A change of float format is the identity here,
  and the product into a zero accumulator is the bare sum. At the last stretch the drawn bias row is added
  to every batch row. The first stretch starts from the zero block.
-/
import proofs.«163167_j20151986553504_1_alg».proof.Proof.Gen.KernelIdeal.Skeleton
import proofs.«163167_j20151986553504_1_alg».proof.Proof.Spec
import Idealize.ShloMosaic.PureOps.Ideal.Laws
import Idealize.ShloMosaic.Lib.Pipeline.Value
import Idealize.ShloMosaic.Lib.ValueIdx
import Idealize.ShloMosaic.Lib.ValueLayout

open scoped BigOperators

noncomputable section

namespace Cert.KernelIdeal.PointIdeal

open Cert.KernelIdeal Cert.KernelIdeal.Gen Cert.BayesLinear
open Idealize.ShloMosaic Idealize.ShloMosaic.ValueIdx

/-! ## The block product's operand indices -/

theorem lhs_axis0 (i : S1024x1024.Idx) (k : dot_S1024x512_S1024x512_S1024x1024_1_1_0_0_n_n.contr.Idx) :
    (dot_S1024x512_S1024x512_S1024x1024_1_1_0_0_n_n.lhsIdx i k 0).val = (i 0).val := by
  unfold DotDims.lhsIdx
  rw [dif_neg (show ¬(0 : Fin S1024x512.rank) ∈ dot_S1024x512_S1024x512_S1024x1024_1_1_0_0_n_n.lhsBatch by decide), dif_pos (show (0 : Fin S1024x512.rank) ∈ dot_S1024x512_S1024x512_S1024x1024_1_1_0_0_n_n.lhsNonContracting by decide)]
  rfl
theorem lhs_axis1 (i : S1024x1024.Idx) (k : dot_S1024x512_S1024x512_S1024x1024_1_1_0_0_n_n.contr.Idx) :
    (dot_S1024x512_S1024x512_S1024x1024_1_1_0_0_n_n.lhsIdx i k 1).val = (k ⟨0, by decide⟩).val :=
  dot_S1024x512_S1024x512_S1024x1024_1_1_0_0_n_n.lhsIdx_val_of_single rfl i k
theorem rhs_axis0 (i : S1024x1024.Idx) (k : dot_S1024x512_S1024x512_S1024x1024_1_1_0_0_n_n.contr.Idx) :
    (dot_S1024x512_S1024x512_S1024x1024_1_1_0_0_n_n.rhsIdx i k 0).val = (i 1).val := by
  unfold DotDims.rhsIdx
  rw [dif_neg (show ¬(0 : Fin S1024x512.rank) ∈ dot_S1024x512_S1024x512_S1024x1024_1_1_0_0_n_n.rhsBatch by decide), dif_pos (show (0 : Fin S1024x512.rank) ∈ dot_S1024x512_S1024x512_S1024x1024_1_1_0_0_n_n.rhsNonContracting by decide)]
  rfl
theorem rhs_axis1 (i : S1024x1024.Idx) (k : dot_S1024x512_S1024x512_S1024x1024_1_1_0_0_n_n.contr.Idx) :
    (dot_S1024x512_S1024x512_S1024x1024_1_1_0_0_n_n.rhsIdx i k 1).val = (k ⟨0, by decide⟩).val :=
  dot_S1024x512_S1024x512_S1024x1024_1_1_0_0_n_n.rhsIdx_val_of_single rfl i k

/-- The block product into a zero accumulator, at entry `(p, q)`: the sum over the stretch of the left
    block's row `p` against the right block's row `q` (both operands are contracted along their second axis). -/
theorem block_product (l r : FVec Ideal S1024x512 .bf16) (p q : Fin 1024) :
    matmul dot_S1024x512_S1024x512_S1024x1024_1_1_0_0_n_n none l r (constant S1024x1024 .f32 0x00000000#32) (ix2 p q)
      = ∑ kk : Fin 512, l (ix2 p kk) * r (ix2 q kk) := by
  simp only [matmul]
  rw [Ideal.matmul_constant_zero_apply, ← Equiv.sum_comp (contrEquiv1 dot_S1024x512_S1024x512_S1024x1024_1_1_0_0_n_n 512 rfl rfl).symm]
  refine Finset.sum_congr rfl fun k _ => ?_
  have hk := contrEquiv1_symm_val dot_S1024x512_S1024x512_S1024x1024_1_1_0_0_n_n 512 rfl rfl k
  have el : dot_S1024x512_S1024x512_S1024x1024_1_1_0_0_n_n.lhsIdx (ix2 p q) ((contrEquiv1 dot_S1024x512_S1024x512_S1024x1024_1_1_0_0_n_n 512 rfl rfl).symm k) = ix2 p k := funext fun a => Fin.ext (by
    match a with
    | ⟨0, _⟩ => exact lhs_axis0 _ _
    | ⟨1, _⟩ => exact (lhs_axis1 _ _).trans hk)
  have er : dot_S1024x512_S1024x512_S1024x1024_1_1_0_0_n_n.rhsIdx (ix2 p q) ((contrEquiv1 dot_S1024x512_S1024x512_S1024x1024_1_1_0_0_n_n 512 rfl rfl).symm k) = ix2 q k := funext fun a => Fin.ext (by
    match a with
    | ⟨0, _⟩ => exact rhs_axis0 _ _
    | ⟨1, _⟩ => exact (rhs_axis1 _ _).trans hk)
  rw [el, er]

/-! ## The three stored values at an entry -/

/-- The reset block is zero everywhere. -/
theorem reset_apply (j : S1024x1024.Idx) : k0_pay1 (F := Ideal) j = 0 := by
  unfold k0_pay1
  rw [shapeCast_self]
  exact Ideal.ofBits_zero_f32

/-- The accumulation step at entry `(p, q)`: the running entry plus the stretch's sum of `x` against the drawn
    weights. -/
theorem step_apply (wmu weps wlv x : Vec Ideal S1024x512 .f32) (acc : Vec Ideal S1024x1024 .f32) (p q : Fin 1024) :
    k0_pay2 (F := Ideal) wmu weps wlv x acc (ix2 p q)
      = acc (ix2 p q) + ∑ kk : Fin 512, x (ix2 p kk) * sample (wmu (ix2 q kk)) (weps (ix2 q kk)) (wlv (ix2 q kk)) := by
  unfold k0_pay2
  rw [shapeCast_self]
  refine congrArg (acc (ix2 p q) + ·) ?_
  exact block_product _ _ p q

/-- The closing step at entry `(p, q)`: the running entry plus the drawn bias of output feature `q`. -/
theorem close_apply (bmu beps blv : Vec Ideal S1x1024 .f32) (acc : Vec Ideal S1024x1024 .f32) (p q : Fin 1024) :
    k0_pay3 (F := Ideal) bmu beps blv acc (ix2 p q)
      = acc (ix2 p q) + sample (bmu (ix2 (0 : Fin 1) q)) (beps (ix2 (0 : Fin 1) q)) (blv (ix2 (0 : Fin 1) q)) := by
  unfold k0_pay3
  rw [shapeCast_self, shapeCast_self, shapeCast_self]
  refine congrArg (acc (ix2 p q) + ·) ?_
  exact broadcastTo_1b_ab_apply _ _ p q

end Cert.KernelIdeal.PointIdeal

end
-- ==== Proof.Blocks.lean ====
/-
  Where a grid point's blocks sit in the argument arrays.

  The grid is 8 × 4 × 8: point `t` works on batch block `t / 32`, output-feature block `t / 8 % 4` and stretch
  `t % 8` of the input features. Its block of `x` is rows `1024 · (t / 32) + p`, columns `512 · (t % 8) + kk`;
  its blocks of the three weight arrays are rows `1024 · (t / 8 % 4) + q`, the same columns; its blocks of the
  three bias rows (each bias vector laid out as one row of 4096) are columns `1024 · (t / 8 % 4) + q`; and
  the output block is rows `1024 · (t / 32) + p`, columns `1024 · (t / 8 % 4) + q` of the result.
-/
import proofs.«163167_j20151986553504_1_alg».proof.Proof.Gen.KernelIdeal.Frame
import Idealize.ShloMosaic.Lib.Pipeline.Value
import Idealize.ShloMosaic.Lib.StableHlo.Run
import Idealize.ShloMosaic.Lib.ValueIdx
import Idealize.ShloMosaic.Lib.ValueLayout

noncomputable section

namespace Cert.KernelIdeal.Blocks

open Cert.KernelIdeal Cert.KernelIdeal.Gen
open Idealize.ShloMosaic Idealize.ShloMosaic.TcCoe Idealize.SL.Sem Idealize.ShloMosaic.ValueIdx

variable {F : FTy → Type} [FloatOps F]
variable (m : (ℓ : Loc nD τ sig) → Buf (Elt F) ℓ)

/-- The point's blocks, each at its literal type. -/
abbrev xBlk (c : Dev nD) (t : Fin cfg0.N) : Vec F S1024x512 .f32 := iblk m c 0 t
abbrev muBlk (c : Dev nD) (t : Fin cfg0.N) : Vec F S1024x512 .f32 := iblk m c 1 t
abbrev lvBlk (c : Dev nD) (t : Fin cfg0.N) : Vec F S1024x512 .f32 := iblk m c 2 t
abbrev epsBlk (c : Dev nD) (t : Fin cfg0.N) : Vec F S1024x512 .f32 := iblk m c 3 t
abbrev bmuBlk (c : Dev nD) (t : Fin cfg0.N) : Vec F S1x1024 .f32 := iblk m c 4 t
abbrev blvBlk (c : Dev nD) (t : Fin cfg0.N) : Vec F S1x1024 .f32 := iblk m c 5 t
abbrev bepsBlk (c : Dev nD) (t : Fin cfg0.N) : Vec F S1x1024 .f32 := iblk m c 6 t

/-- The block indices of every window at every point, decided once over the 256 points. -/
theorem block_indices : ∀ t : Fin cfg0.N,
    win0_0.index t (0 : Fin 2) = t.val / 32 ∧ win0_0.index t (1 : Fin 2) = t.val % 8
    ∧ win0_1.index t (0 : Fin 2) = t.val / 8 % 4 ∧ win0_1.index t (1 : Fin 2) = t.val % 8
    ∧ win0_2.index t (0 : Fin 2) = t.val / 8 % 4 ∧ win0_2.index t (1 : Fin 2) = t.val % 8
    ∧ win0_3.index t (0 : Fin 2) = t.val / 8 % 4 ∧ win0_3.index t (1 : Fin 2) = t.val % 8
    ∧ win0_4.index t (0 : Fin 2) = 0 ∧ win0_4.index t (1 : Fin 2) = t.val / 8 % 4
    ∧ win0_5.index t (0 : Fin 2) = 0 ∧ win0_5.index t (1 : Fin 2) = t.val / 8 % 4
    ∧ win0_6.index t (0 : Fin 2) = 0 ∧ win0_6.index t (1 : Fin 2) = t.val / 8 % 4
    ∧ win0_7.index t (0 : Fin 2) = t.val / 32 ∧ win0_7.index t (1 : Fin 2) = t.val / 8 % 4 :=
  (by decide +kernel : ∀ t : Fin grid0.N, _)

/-- The block of `x`. -/
theorem xBlk_apply (c : Dev nD) (t : Fin cfg0.N) (p : Fin 1024) (kk : Fin 512) (P : Fin 8192) (K : Fin 4096)
    (hP : P.val = t.val / 32 * 1024 + p.val) (hK : K.val = t.val % 8 * 512 + kk.val) :
    xBlk m c t (ix2 p kk) = m ((c : Thread nD τ).loc main_arg0) (ix2 P K) := by
  have e := block_indices t
  show iblk m c 0 t (ix2 p kk) = _
  unfold iblk
  rw [View.read_apply]
  show V m c main_arg0 _ = _
  rw [V_main_arg0]
  congr 1
  funext a
  apply Fin.ext
  match a with
  | ⟨0, _⟩ => show win0_0.index t (0 : Fin 2) * 1024 + 1 * p.val = P.val; rw [e.1, hP]; omega
  | ⟨1, _⟩ => show win0_0.index t (1 : Fin 2) * 512 + 1 * kk.val = K.val; rw [e.2.1, hK]; omega

/-- The block of the weight means. -/
theorem muBlk_apply (c : Dev nD) (t : Fin cfg0.N) (q : Fin 1024) (kk : Fin 512) (Q K : Fin 4096)
    (hQ : Q.val = t.val / 8 % 4 * 1024 + q.val) (hK : K.val = t.val % 8 * 512 + kk.val) :
    muBlk m c t (ix2 q kk) = m ((c : Thread nD τ).loc main_arg1) (ix2 Q K) := by
  have e := block_indices t
  show iblk m c 1 t (ix2 q kk) = _
  unfold iblk
  rw [View.read_apply]
  show V m c main_arg1 _ = _
  rw [V_main_arg1]
  congr 1
  funext a
  apply Fin.ext
  match a with
  | ⟨0, _⟩ => show win0_1.index t (0 : Fin 2) * 1024 + 1 * q.val = Q.val; rw [e.2.2.1, hQ]; omega
  | ⟨1, _⟩ => show win0_1.index t (1 : Fin 2) * 512 + 1 * kk.val = K.val; rw [e.2.2.2.1, hK]; omega

/-- The block of the weight log-variances. -/
theorem lvBlk_apply (c : Dev nD) (t : Fin cfg0.N) (q : Fin 1024) (kk : Fin 512) (Q K : Fin 4096)
    (hQ : Q.val = t.val / 8 % 4 * 1024 + q.val) (hK : K.val = t.val % 8 * 512 + kk.val) :
    lvBlk m c t (ix2 q kk) = m ((c : Thread nD τ).loc main_arg2) (ix2 Q K) := by
  have e := block_indices t
  show iblk m c 2 t (ix2 q kk) = _
  unfold iblk
  rw [View.read_apply]
  show V m c main_arg2 _ = _
  rw [V_main_arg2]
  congr 1
  funext a
  apply Fin.ext
  match a with
  | ⟨0, _⟩ => show win0_2.index t (0 : Fin 2) * 1024 + 1 * q.val = Q.val; rw [e.2.2.2.2.1, hQ]; omega
  | ⟨1, _⟩ => show win0_2.index t (1 : Fin 2) * 512 + 1 * kk.val = K.val; rw [e.2.2.2.2.2.1, hK]; omega

/-- The block of the weight noises. -/
theorem epsBlk_apply (c : Dev nD) (t : Fin cfg0.N) (q : Fin 1024) (kk : Fin 512) (Q K : Fin 4096)
    (hQ : Q.val = t.val / 8 % 4 * 1024 + q.val) (hK : K.val = t.val % 8 * 512 + kk.val) :
    epsBlk m c t (ix2 q kk) = m ((c : Thread nD τ).loc main_arg5) (ix2 Q K) := by
  have e := block_indices t
  show iblk m c 3 t (ix2 q kk) = _
  unfold iblk
  rw [View.read_apply]
  show V m c main_arg5 _ = _
  rw [V_main_arg5]
  congr 1
  funext a
  apply Fin.ext
  match a with
  | ⟨0, _⟩ => show win0_3.index t (0 : Fin 2) * 1024 + 1 * q.val = Q.val; rw [e.2.2.2.2.2.2.1, hQ]; omega
  | ⟨1, _⟩ => show win0_3.index t (1 : Fin 2) * 512 + 1 * kk.val = K.val; rw [e.2.2.2.2.2.2.2.1, hK]; omega

/-- The three bias vectors reach the grid as rows of shape 1 × 4096. -/
theorem bmu_row (c : Dev nD) : (V m c main_v0 : S1x4096.Idx → Elt F .f32)
    = shapeCast S1x4096 (m ((c : Thread nD τ).loc main_arg3)) shapeCasts_S4096_S1x4096 := by
  dsimp only [V, hostOps0]; after_results; rfl
theorem blv_row (c : Dev nD) : (V m c main_v1 : S1x4096.Idx → Elt F .f32)
    = shapeCast S1x4096 (m ((c : Thread nD τ).loc main_arg4)) shapeCasts_S4096_S1x4096 := by
  dsimp only [V, hostOps0]; after_results; rfl
theorem beps_row (c : Dev nD) : (V m c main_v2 : S1x4096.Idx → Elt F .f32)
    = shapeCast S1x4096 (m ((c : Thread nD τ).loc main_arg6)) shapeCasts_S4096_S1x4096 := by
  dsimp only [V, hostOps0]; after_results; rfl

/-- The block of the bias means. -/
theorem bmuBlk_apply (c : Dev nD) (t : Fin cfg0.N) (q : Fin 1024) (Q : Fin 4096)
    (hQ : Q.val = t.val / 8 % 4 * 1024 + q.val) :
    bmuBlk m c t (ix2 (0 : Fin 1) q) = m ((c : Thread nD τ).loc main_arg3) (ix1 Q) := by
  have e := block_indices t
  show iblk m c 4 t (ix2 (0 : Fin 1) q) = _
  unfold iblk
  rw [View.read_apply]
  show V m c main_v0 _ = _
  rw [bmu_row]
  refine Eq.trans (congrArg _ ?_) (shapeCast_a_1a_apply _ _ (0 : Fin 1) Q)
  funext a
  apply Fin.ext
  match a with
  | ⟨0, _⟩ => show win0_4.index t (0 : Fin 2) * 1 + 1 * 0 = 0; rw [e.2.2.2.2.2.2.2.2.1]
  | ⟨1, _⟩ => show win0_4.index t (1 : Fin 2) * 1024 + 1 * q.val = Q.val; rw [e.2.2.2.2.2.2.2.2.2.1, hQ]; omega

/-- The block of the bias log-variances. -/
theorem blvBlk_apply (c : Dev nD) (t : Fin cfg0.N) (q : Fin 1024) (Q : Fin 4096)
    (hQ : Q.val = t.val / 8 % 4 * 1024 + q.val) :
    blvBlk m c t (ix2 (0 : Fin 1) q) = m ((c : Thread nD τ).loc main_arg4) (ix1 Q) := by
  have e := block_indices t
  show iblk m c 5 t (ix2 (0 : Fin 1) q) = _
  unfold iblk
  rw [View.read_apply]
  show V m c main_v1 _ = _
  rw [blv_row]
  refine Eq.trans (congrArg _ ?_) (shapeCast_a_1a_apply _ _ (0 : Fin 1) Q)
  funext a
  apply Fin.ext
  match a with
  | ⟨0, _⟩ => show win0_5.index t (0 : Fin 2) * 1 + 1 * 0 = 0; rw [e.2.2.2.2.2.2.2.2.2.2.1]
  | ⟨1, _⟩ => show win0_5.index t (1 : Fin 2) * 1024 + 1 * q.val = Q.val; rw [e.2.2.2.2.2.2.2.2.2.2.2.1, hQ]; omega

/-- The block of the bias noises. -/
theorem bepsBlk_apply (c : Dev nD) (t : Fin cfg0.N) (q : Fin 1024) (Q : Fin 4096)
    (hQ : Q.val = t.val / 8 % 4 * 1024 + q.val) :
    bepsBlk m c t (ix2 (0 : Fin 1) q) = m ((c : Thread nD τ).loc main_arg6) (ix1 Q) := by
  have e := block_indices t
  show iblk m c 6 t (ix2 (0 : Fin 1) q) = _
  unfold iblk
  rw [View.read_apply]
  show V m c main_v2 _ = _
  rw [beps_row]
  refine Eq.trans (congrArg _ ?_) (shapeCast_a_1a_apply _ _ (0 : Fin 1) Q)
  funext a
  apply Fin.ext
  match a with
  | ⟨0, _⟩ => show win0_6.index t (0 : Fin 2) * 1 + 1 * 0 = 0; rw [e.2.2.2.2.2.2.2.2.2.2.2.2.1]
  | ⟨1, _⟩ => show win0_6.index t (1 : Fin 2) * 1024 + 1 * q.val = Q.val; rw [e.2.2.2.2.2.2.2.2.2.2.2.2.2.1, hQ]; omega

/-- Where entry `(p, q)` of the point's output block sits in the result. -/
theorem out_emb (t : Fin cfg0.N) (p q : Fin 1024) (P : Fin 8192) (Q : Fin 4096)
    (hP : P.val = t.val / 32 * 1024 + p.val) (hQ : Q.val = t.val / 8 % 4 * 1024 + q.val) :
    ((cfg0.win 7).blk t).view.emb (ix2 p q) = ix2 P Q := by
  have e := block_indices t
  funext a
  apply Fin.ext
  match a with
  | ⟨0, _⟩ => show win0_7.index t (0 : Fin 2) * 1024 + 1 * p.val = P.val; rw [e.2.2.2.2.2.2.2.2.2.2.2.2.2.2.1, hP]; omega
  | ⟨1, _⟩ => show win0_7.index t (1 : Fin 2) * 1024 + 1 * q.val = Q.val; rw [e.2.2.2.2.2.2.2.2.2.2.2.2.2.2.2, hQ]; omega

end Cert.KernelIdeal.Blocks

end
-- ==== Proof.LayerValue.lean ====
/-
  The result array of the kernel's run is the layer's output.

  The running block after a point is the fold of the accumulation step from the zero block set at the first
  stretch of the point's output block; unrolled, it is zero plus the stretch products of the stretches so far.
  At the last stretch, point `t` with `t % 8 = 7`, all eight stretches of output block `t / 8` are in, the
  bias row is added, and the block is written back: entry `(p, q)` of that block is

      (0 + ∑ s < 8, ∑ kk < 512, x[P, 512 s + kk] · w[Q, 512 s + kk]) + bias[Q],

  with `P = 1024 · (t / 32) + p` and `Q = 1024 · (t / 8 % 4) + q`, which is the layer's output at `(P, Q)` once the
  sum over the 4096 input features is taken stretch by stretch. The thirty-two write-backs tile the result.
-/
import proofs.«163167_j20151986553504_1_alg».proof.Proof.Gen.KernelIdeal.Value
import proofs.«163167_j20151986553504_1_alg».proof.Proof.Spec
import proofs.«163167_j20151986553504_1_alg».proof.Proof.PointValue
import proofs.«163167_j20151986553504_1_alg».proof.Proof.PointIdeal
import proofs.«163167_j20151986553504_1_alg».proof.Proof.Blocks

open scoped BigOperators

noncomputable section

namespace Cert.KernelIdeal.LayerValue

open Cert.KernelIdeal Cert.KernelIdeal.Gen Cert.KernelIdeal.Value Cert.KernelIdeal.Blocks
open Cert.KernelIdeal.PointValue Cert.KernelIdeal.PointIdeal Cert.BayesLinear
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-! ## One point's contribution -/

/-- What point `n` adds to entry `y` of the running block: its stretch's sum of `x` against the drawn weights
    (nothing past the grid, where it is never used). -/
def addend (c : Dev nD) (n : ℕ) (y : S1024x1024.Idx) : EReal :=
  if h : n < cfg0.N then
    ∑ kk : Fin 512, xBlk m c ⟨n, h⟩ (ix2 (y 0) kk)
      * sample (muBlk m c ⟨n, h⟩ (ix2 (y 1) kk)) (epsBlk m c ⟨n, h⟩ (ix2 (y 1) kk)) (lvBlk m c ⟨n, h⟩ (ix2 (y 1) kk))
  else 0

/-- The accumulation step at point `n` adds that point's contribution. -/
theorem step_at (c : Dev nD) (n : ℕ) (h : n < cfg0.N) (acc : Vec Ideal S1024x1024 .f32) (y : S1024x1024.Idx) :
    k0_pay2 (F := Ideal) (muBlk m c ⟨n, h⟩) (epsBlk m c ⟨n, h⟩) (lvBlk m c ⟨n, h⟩) (xBlk m c ⟨n, h⟩) acc y
      = acc y + addend m c n y := by
  obtain ⟨p, q, rfl⟩ : ∃ (p q : Fin 1024), y = ix2 p q := ⟨y 0, y 1, eq_ix2 y⟩
  rw [step_apply]
  unfold addend
  rw [dif_pos h]

/-- At a first stretch the running block becomes zero plus the point's contribution, whatever it held. -/
theorem scratch_reset (c : Dev nD) (n : ℕ) (h : n < cfg0.N) (h0 : n % 8 = 0) (old : Vec Ideal S1024x1024 .f32)
    (y : S1024x1024.Idx) : scAt0_0 m c n h old y = (0 : EReal) + addend m c n y := by
  have h1 : ¬n % 8 = 7 := by omega
  unfold scAt0_0
  rw [dif_pos h0, dif_neg h1]
  refine (congrFun (running_first (F := Ideal) c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩) (ms0_3 ⟨n, h⟩) (hs0_3 ⟨n, h⟩) (ms0_4 ⟨n, h⟩) (hs0_4 ⟨n, h⟩) (ms0_5 ⟨n, h⟩) (hs0_5 ⟨n, h⟩) (ms0_6 ⟨n, h⟩) (hs0_6 ⟨n, h⟩) (ms0_7 ⟨n, h⟩) (hs0_7 ⟨n, h⟩) scM0_0 (Memref.isWhole_whole _) ((hcond0_0 ⟨n, h⟩).mpr h0) (fun hh => h1 ((hcond0_1 ⟨n, h⟩).mp hh)) (xBlk m c ⟨n, h⟩) (muBlk m c ⟨n, h⟩) (lvBlk m c ⟨n, h⟩) (epsBlk m c ⟨n, h⟩) (bmuBlk m c ⟨n, h⟩) (blvBlk m c ⟨n, h⟩) (bepsBlk m c ⟨n, h⟩)) y).trans ?_
  refine (step_at m c n h _ y).trans ?_
  rw [reset_apply]

/-- At any later stretch it gains the point's contribution. -/
theorem scratch_step (c : Dev nD) (n : ℕ) (h : n < cfg0.N) (h0 : ¬n % 8 = 0) (acc : Vec Ideal S1024x1024 .f32)
    (y : S1024x1024.Idx) : scAt0_0 m c n h acc y = acc y + addend m c n y := by
  unfold scAt0_0
  rw [dif_neg h0]
  by_cases h1 : n % 8 = 7
  · rw [dif_pos h1]
    exact (congrFun (running_last (F := Ideal) c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩) (ms0_3 ⟨n, h⟩) (hs0_3 ⟨n, h⟩) (ms0_4 ⟨n, h⟩) (hs0_4 ⟨n, h⟩) (ms0_5 ⟨n, h⟩) (hs0_5 ⟨n, h⟩) (ms0_6 ⟨n, h⟩) (hs0_6 ⟨n, h⟩) (ms0_7 ⟨n, h⟩) (hs0_7 ⟨n, h⟩) scM0_0 (Memref.isWhole_whole _) (fun hh => h0 ((hcond0_0 ⟨n, h⟩).mp hh)) ((hcond0_1 ⟨n, h⟩).mpr h1) (xBlk m c ⟨n, h⟩) (muBlk m c ⟨n, h⟩) (lvBlk m c ⟨n, h⟩) (epsBlk m c ⟨n, h⟩) (bmuBlk m c ⟨n, h⟩) (blvBlk m c ⟨n, h⟩) (bepsBlk m c ⟨n, h⟩) acc) y).trans (step_at m c n h acc y)
  · rw [dif_neg h1]
    exact (congrFun (running_mid (F := Ideal) c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩) (ms0_3 ⟨n, h⟩) (hs0_3 ⟨n, h⟩) (ms0_4 ⟨n, h⟩) (hs0_4 ⟨n, h⟩) (ms0_5 ⟨n, h⟩) (hs0_5 ⟨n, h⟩) (ms0_6 ⟨n, h⟩) (hs0_6 ⟨n, h⟩) (ms0_7 ⟨n, h⟩) (hs0_7 ⟨n, h⟩) scM0_0 (Memref.isWhole_whole _) (fun hh => h0 ((hcond0_0 ⟨n, h⟩).mp hh)) (fun hh => h1 ((hcond0_1 ⟨n, h⟩).mp hh)) (xBlk m c ⟨n, h⟩) (muBlk m c ⟨n, h⟩) (lvBlk m c ⟨n, h⟩) (epsBlk m c ⟨n, h⟩) (bmuBlk m c ⟨n, h⟩) (blvBlk m c ⟨n, h⟩) (bepsBlk m c ⟨n, h⟩) acc) y).trans (step_at m c n h acc y)

/-- So after the last stretch of an output block the running block is zero plus the eight contributions. -/
theorem scratch_after (c : Dev nD) (t : Fin cfg0.N) (h7 : t.val % 8 = 7) (y : S1024x1024.Idx) :
    (outsAt0 m c t.val t.isLt).2 y = (0 : EReal) + ∑ s ∈ Finset.range 8, addend m c (8 * (t.val / 8) + s) y := by
  rw [soutsAt0_0_eq m c t]
  refine (Pipeline.accAt_add_apply (ι := S1024x1024.Idx) (β := EReal)
    (fun n h => scAt0_0 m c n h (VS0_0.read (Elt Ideal) VS0_0.junk)) (scAt0_0 m c) (fun _ => 0) (addend m c)
    (8 * (t.val / 8)) 7 (fun h i => scratch_reset m c _ h (by omega) _ i)
    (fun n h acc i hlo hhi => scratch_step m c n h (by omega) acc i) (t.val % 8) (by omega) _ y).trans ?_
  rw [h7]

/-! ## What a write-back writes -/

/-- At a last stretch the block written back is the closing step over the running block the point leaves. -/
theorem flushed_last (c : Dev nD) (t : Fin cfg0.N) (h7 : t.val % 8 = 7) :
    (dats m 0 c).flushed 7 t = (cfg0.win 7).cut (grid0.coords t)
      (k0_pay3 (F := Ideal) (bmuBlk m c t) (bepsBlk m c t) (blvBlk m c t) ((outsAt0 m c t.val t.isLt).2)) := by
  have h0 : ¬t.val % 8 = 0 := by omega
  rw [flushed7_C m c t h0 h7]
  refine congrArg ((cfg0.win 7).cut (grid0.coords t)) ?_
  rw [outsAt0_C m c t h0 h7]
  dsimp only
  rw [running_last (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun hh => h0 ((hcond0_0 t).mp hh)) ((hcond0_1 t).mpr h7) (xBlk m c t) (muBlk m c t) (lvBlk m c t) (epsBlk m c t) (bmuBlk m c t) (blvBlk m c t) (bepsBlk m c t) _]
  exact output_last (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun hh => h0 ((hcond0_0 t).mp hh)) ((hcond0_1 t).mpr h7) (xBlk m c t) (muBlk m c t) (lvBlk m c t) (epsBlk m c t) (bmuBlk m c t) (blvBlk m c t) (bepsBlk m c t) _

/-- The argument arrays as launched, each at its literal type. -/
abbrev xArr (c : Dev nD) : S8192x4096.Idx → EReal := m ((c : Thread nD τ).loc main_arg0)
abbrev muArr (c : Dev nD) : S4096x4096.Idx → EReal := m ((c : Thread nD τ).loc main_arg1)
abbrev lvArr (c : Dev nD) : S4096x4096.Idx → EReal := m ((c : Thread nD τ).loc main_arg2)
abbrev bmuArr (c : Dev nD) : S4096.Idx → EReal := m ((c : Thread nD τ).loc main_arg3)
abbrev blvArr (c : Dev nD) : S4096.Idx → EReal := m ((c : Thread nD τ).loc main_arg4)
abbrev epsArr (c : Dev nD) : S4096x4096.Idx → EReal := m ((c : Thread nD τ).loc main_arg5)
abbrev bepsArr (c : Dev nD) : S4096.Idx → EReal := m ((c : Thread nD τ).loc main_arg6)

/-- The layer's output of the arguments as launched. -/
abbrev result (c : Dev nD) : S8192x4096.Idx → EReal :=
  linear (xArr m c) (muArr m c) (lvArr m c) (epsArr m c) (bmuArr m c) (blvArr m c) (bepsArr m c)

/-- Entry `(p, q)` of the block written back at a last stretch is the layer's output at its place in the result. -/
theorem entry_eq (c : Dev nD) (t : Fin cfg0.N) (h7 : t.val % 8 = 7) (p q : Fin 1024) (P : Fin 8192) (Q : Fin 4096)
    (hP : P.val = t.val / 32 * 1024 + p.val) (hQ : Q.val = t.val / 8 % 4 * 1024 + q.val) :
    ((0 : EReal) + ∑ s ∈ Finset.range 8, addend m c (8 * (t.val / 8) + s) (ix2 p q))
      + sample (bmuBlk m c t (ix2 (0 : Fin 1) q)) (bepsBlk m c t (ix2 (0 : Fin 1) q)) (blvBlk m c t (ix2 (0 : Fin 1) q))
    = result m c (ix2 P Q) := by
  have hN : cfg0.N = 256 := N_0
  have ht : t.val < 256 := lt_of_lt_of_eq t.isLt hN
  rw [bmuBlk_apply m c t q Q hQ, bepsBlk_apply m c t q Q hQ, blvBlk_apply m c t q Q hQ, zero_add, Finset.sum_range]
  show _ = (∑ i : Fin 4096, xArr m c (ix2 P i)
      * sample (muArr m c (ix2 Q i)) (epsArr m c (ix2 Q i)) (lvArr m c (ix2 Q i)))
    + sample (bmuArr m c (ix1 Q)) (bepsArr m c (ix1 Q)) (blvArr m c (ix1 Q))
  rw [sum_stretches]
  refine congrArg (· + _) (Finset.sum_congr rfl fun s _ => ?_)
  have hs : 8 * (t.val / 8) + s.val < cfg0.N := by have := s.isLt; omega
  unfold addend
  rw [dif_pos hs]
  refine Finset.sum_congr rfl fun kk _ => ?_
  have hK : (⟨s.val * 512 + kk.val, by have := s.isLt; have := kk.isLt; omega⟩ : Fin 4096).val
      = (8 * (t.val / 8) + s.val) % 8 * 512 + kk.val := by
    have := s.isLt; show s.val * 512 + kk.val = _; omega
  have hP' : P.val = (8 * (t.val / 8) + s.val) / 32 * 1024 + p.val := by have := s.isLt; omega
  have hQ' : Q.val = (8 * (t.val / 8) + s.val) / 8 % 4 * 1024 + q.val := by have := s.isLt; omega
  show xBlk m c ⟨_, hs⟩ (ix2 p kk) * sample (muBlk m c ⟨_, hs⟩ (ix2 q kk)) (epsBlk m c ⟨_, hs⟩ (ix2 q kk)) (lvBlk m c ⟨_, hs⟩ (ix2 q kk)) = _
  rw [xBlk_apply m c ⟨_, hs⟩ p kk P _ hP' hK, muBlk_apply m c ⟨_, hs⟩ q kk Q _ hQ' hK,
    epsBlk_apply m c ⟨_, hs⟩ q kk Q _ hQ' hK, lvBlk_apply m c ⟨_, hs⟩ q kk Q _ hQ' hK]

/-- WHAT A WRITE-BACK WRITES is its block of the layer's output. -/
theorem flushed_eq (c : Dev nD) (t : Fin cfg0.N) (hf : (cfg0.win 7).flush t = true) :
    (dats m 0 c).flushed 7 t = ((cfg0.win 7).blk t).view.read (Elt Ideal) (result m c) := by
  have h7 : t.val % 8 = 7 := (flush0_7 t).mp hf
  have hN : cfg0.N = 256 := N_0
  have ht : t.val < 256 := lt_of_lt_of_eq t.isLt hN
  rw [flushed_last m c t h7]
  refine funext fun (j : S1024x1024.Idx) => ?_
  obtain ⟨p, q, rfl⟩ : ∃ (p q : Fin 1024), j = ix2 p q := ⟨j 0, j 1, eq_ix2 j⟩
  show k0_pay3 (F := Ideal) (bmuBlk m c t) (bepsBlk m c t) (blvBlk m c t) ((outsAt0 m c t.val t.isLt).2) (ix2 p q)
    = result m c (((cfg0.win 7).blk t).view.emb (ix2 p q))
  rw [close_apply, scratch_after m c t h7,
    out_emb t p q ⟨t.val / 32 * 1024 + p.val, by have := p.isLt; omega⟩ ⟨t.val / 8 % 4 * 1024 + q.val, by have := q.isLt; omega⟩ rfl rfl]
  exact entry_eq m c t h7 p q _ _ rfl rfl

/-! ## The write-backs tile the result -/

theorem cover_point (i : S8192x4096.Idx) : 32 * ((i 0).val / 1024) + 8 * ((i 1).val / 1024) + 7 < cfg0.N := by
  have h0 : (i 0).val < 8192 := (i 0).isLt
  have h1 : (i 1).val < 4096 := (i 1).isLt
  rw [show cfg0.N = 256 from N_0]; omega

/-- Entry `(b, o)` of the result lies in the block written back at the last stretch of batch block `b / 1024`
    and output-feature block `o / 1024`. -/
theorem cover (i : S8192x4096.Idx) :
    ∃ t : Fin cfg0.N, (cfg0.win 7).flush t = true ∧ i ∈ ((cfg0.win 7).blk t).view.set := by
  have h0 : (i 0).val < 8192 := (i 0).isLt
  have h1 : (i 1).val < 4096 := (i 1).isLt
  refine ⟨⟨_, cover_point i⟩, (flush0_7 _).mpr (by show (32 * ((i 0).val / 1024) + 8 * ((i 1).val / 1024) + 7) % 8 = 7; omega), ?_⟩
  have e := block_indices ⟨_, cover_point i⟩
  show i ∈ ((View.whole main_v3).slice (win0_7.rect ⟨_, cover_point i⟩)).set
  rw [View.set_slice_whole, Rect.mem_set_unit]
  intro a
  match a with
  | ⟨0, _⟩ =>
    show win0_7.index ⟨_, cover_point i⟩ (0 : Fin 2) * 1024 ≤ (i 0).val ∧ (i 0).val < win0_7.index ⟨_, cover_point i⟩ (0 : Fin 2) * 1024 + 1024
    rw [e.2.2.2.2.2.2.2.2.2.2.2.2.2.2.1]; dsimp only; omega
  | ⟨1, _⟩ =>
    show win0_7.index ⟨_, cover_point i⟩ (1 : Fin 2) * 1024 ≤ (i 1).val ∧ (i 1).val < win0_7.index ⟨_, cover_point i⟩ (1 : Fin 2) * 1024 + 1024
    rw [e.2.2.2.2.2.2.2.2.2.2.2.2.2.2.2]; dsimp only; omega

/-- THE RESULT ARRAY after the run is the layer's output. -/
theorem final (c : Dev nD) : (dats m 0 c).arrAt 7 cfg0.N = result m c :=
  (dats m 0 c).arrAt_eq_of_cover 7 (result m c) (flushed_eq m c) cover

/-! ## The run, read -/

theorem run : θ_run defs (onTc (τ := τ) (main (F := Ideal))) ⟨m, fun _ => 0, ρ⟩ fun r => ∀ c : Dev nD,
      r.2.mem ((c : Thread nD τ).loc main_v3) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans (final m c), (h c).2⟩) (run_blocks m ρ)

end Cert.KernelIdeal.LayerValue

end
-- ==== Proof.RefValue.lean ====
/-
  The reference program computes the layer.

  Its sixteen host operations draw the weight matrix and the bias vector entrywise, contract `x`'s second
  axis with the weight matrix's second axis, and add the bias, broadcast along the batch axis. Read at
  an entry `(b, o)` that is `∑ i, x[b, i] · w[o, i]` plus `bias[o]`: the layer's output.
-/
import proofs.«163167_j20151986553504_1_alg».proof.Proof.Gen.ReferenceIdeal.Read
import proofs.«163167_j20151986553504_1_alg».proof.Proof.Spec

open scoped BigOperators

noncomputable section

namespace Cert.ReferenceIdeal.LayerValue

open Cert.ReferenceIdeal Cert.ReferenceIdeal.Gen Cert.ReferenceIdeal.Read Cert.BayesLinear
open Idealize.ShloMosaic Idealize.ShloMosaic.ValueIdx

/-- The contraction reads `x` at `(b, k)` … -/
theorem left_index (i : S8192x4096.Idx) (k : Fin 4096) : lidx_main_v10 i k = ix2 (i 0) k :=
  funext fun a => Fin.ext (by match a with | ⟨0, _⟩ => rfl | ⟨1, _⟩ => rfl)
/-- … and the weights at `(o, k)`. -/
theorem right_index (i : S8192x4096.Idx) (k : Fin 4096) : ridx_main_v10 i k = ix2 (i 1) k :=
  funext fun a => Fin.ext (by match a with | ⟨0, _⟩ => rfl | ⟨1, _⟩ => rfl)
/-- The two broadcasts of the bias read it at `o`. -/
theorem bias_index (i : S8192x4096.Idx) : idx_main_v11 (idx_main_v12 i) = ix1 (i 1) :=
  funext fun a => Fin.ext (by match a with | ⟨0, _⟩ => rfl)

/-- The reference's result is the layer's output of its arguments. -/
theorem reference_eq (x0 : (⟨S8192x4096, .f32⟩ : BufTy).Contents (Elt Ideal)) (x1 x2 : (⟨S4096x4096, .f32⟩ : BufTy).Contents (Elt Ideal)) (x3 x4 : (⟨S4096, .f32⟩ : BufTy).Contents (Elt Ideal))
    (x5 : (⟨S4096x4096, .f32⟩ : BufTy).Contents (Elt Ideal)) (x6 : (⟨S4096, .f32⟩ : BufTy).Contents (Elt Ideal)) :
    val_main_v13 (F := Ideal) x0 x1 x2 x3 x4 x5 x6 = linear x0 x1 x2 x5 x3 x4 x6 := by
  funext i
  rw [val_main_v13_apply, val_main_v10_apply, val_main_v12_apply, val_main_v11_apply, val_main_v9_apply,
    val_main_v8_apply, val_main_v7_apply, val_main_v6_apply, val_main_v5_apply, val_main_cst_0_apply]
  simp only [val_main_v4_apply, val_main_v3_apply, val_main_v2_apply, val_main_v1_apply, val_main_v0_apply,
    val_main_cst_apply, left_index, right_index, bias_index]
  rfl

end Cert.ReferenceIdeal.LayerValue

end
-- ==== Proof.lean ====
/-
  A Bayesian linear layer, tiled, against its plain statement.

  Both programs draw every weight and every bias as `mean + noise · exp(½ · log-variance)` and return
  `out[b, o] = (∑ i < 4096, x[b, i] · w[o, i]) + bias[o]` for 8192 batch rows and 4096 output features.
  The reference does so with one contraction over all 4096 input features. The kernel walks an
  8 × 4 × 8 grid of 1024 × 1024 output blocks and stretches of 512 input features, keeping a running block:
  set to zero at a block's first stretch, increased by the stretch's product at each of the eight
  stretches, and written out with the bias row added at the last. Over the extended reals a change of float
  format is the identity and addition is commutative and associative, so the eight partial sums added one
  after the other to zero are the one sum over 4096 features (`Cert.BayesLinear.sum_stretches`), and the two
  results agree entry by entry. No input needs to be finite for this.

  The frames of the two kernel programs are the generated ones; the reference's frame is its generated run
  with the result dropped; the idealization rewrote nothing, so that conjunct is `True`.
-/
import proofs.«163167_j20151986553504_1_alg».proof.Defs
import proofs.«163167_j20151986553504_1_alg».proof.Proof.Gen.Kernel
import proofs.«163167_j20151986553504_1_alg».proof.Proof.Gen.Kernel.Skeleton
import proofs.«163167_j20151986553504_1_alg».proof.Proof.Gen.Kernel.Launch
import proofs.«163167_j20151986553504_1_alg».proof.Proof.Gen.Kernel.Points
import proofs.«163167_j20151986553504_1_alg».proof.Proof.Gen.Kernel.Frame
import proofs.«163167_j20151986553504_1_alg».proof.Proof.Gen.KernelIdeal
import proofs.«163167_j20151986553504_1_alg».proof.Proof.Gen.KernelIdeal.Skeleton
import proofs.«163167_j20151986553504_1_alg».proof.Proof.Gen.KernelIdeal.Launch
import proofs.«163167_j20151986553504_1_alg».proof.Proof.Gen.KernelIdeal.Points
import proofs.«163167_j20151986553504_1_alg».proof.Proof.Gen.KernelIdeal.Frame
import proofs.«163167_j20151986553504_1_alg».proof.Proof.Gen.ReferenceIdeal
import proofs.«163167_j20151986553504_1_alg».proof.Proof.Gen.Pre_finite_inputs
import proofs.«163167_j20151986553504_1_alg».proof.Proof.Gen.KernelIdeal.Value
import proofs.«163167_j20151986553504_1_alg».proof.Proof.Gen.ReferenceIdeal.Run
import proofs.«163167_j20151986553504_1_alg».proof.Proof.Gen.ReferenceIdeal.Read
import proofs.«163167_j20151986553504_1_alg».proof.Proof.LayerValue
import proofs.«163167_j20151986553504_1_alg».proof.Proof.RefValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_ideal : Cert.frame_KernelIdeal := fun m ρ _ => Cert.KernelIdeal.Gen.frame m ρ

theorem frame_reference : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- From memories that agree on the seven arguments, the kernel's result array ends at the layer's output of
    its arguments, and the reference's at the layer's output of its own: the same array. -/
theorem algebraic : Cert.algebraic_KernelIdeal_ReferenceIdeal := by
  intro m ρ m' ρ' _ hagree
  refine ⟨fun c => Cert.KernelIdeal.LayerValue.result m c, Cert.KernelIdeal.LayerValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v13_eq, Cert.ReferenceIdeal.LayerValue.reference_eq,
    (hagree c).1, (hagree c).2.1, (hagree c).2.2.1, (hagree c).2.2.2.1, (hagree c).2.2.2.2.1,
    (hagree c).2.2.2.2.2.1, (hagree c).2.2.2.2.2.2]

theorem claim : Cert.Claim :=
  ⟨Cert.Kernel.Gen.facts, Cert.KernelIdeal.Gen.facts, Cert.ReferenceIdeal.Gen.facts, Cert.Pre_finite_inputs.Gen.facts,
    frame_kernel, frame_ideal, frame_reference, preserves, algebraic⟩

end Cert.Proof

end
